-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x1024 : Shape := ⟨2, ![8192, 1024]⟩
abbrev S1024x512 : Shape := ⟨2, ![1024, 512]⟩
abbrev S1024x1024 : Shape := ⟨2, ![1024, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S8192x1024 .f32) (main_arg5 : FVec F S1024x512 .f32) (main_arg6 : FVec F S1024x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S8192x512 .f32) (main_arg1 : FVec F S8192x1024 .f32) (main_arg2 : FVec F S8192x1024 .f32) (main_arg3 : FVec F S8192x1024 .f32) (main_arg4 : FVec F S8192x1024 .f32) (main_arg5 : FVec F S1024x512 .f32) (main_arg6 : FVec F S1024x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_v13 main_v16
-- ==== Kernel.lean ====
abbrev S8192x512 : Shape := ⟨2, ![8192, 512]⟩
abbrev S8192x1024 : Shape := ⟨2, ![8192, 1024]⟩
abbrev S1024x512 : Shape := ⟨2, ![1024, 512]⟩
abbrev S1024x1024 : Shape := ⟨2, ![1024, 1024]⟩
abbrev S512x1024 : Shape := ⟨2, ![512, 1024]⟩
abbrev S4x8192x1024 : Shape := ⟨3, ![4, 8192, 1024]⟩
abbrev S256x512 : Shape := ⟨2, ![256, 512]⟩
abbrev S256x1024 : Shape := ⟨2, ![256, 1024]⟩
abbrev S4x256x1024 : Shape := ⟨3, ![4, 256, 1024]⟩
abbrev S1x256x1024 : Shape := ⟨3, ![1, 256, 1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1024x512, .f32⟩
  | .hbm, ⟨6, _⟩ => ⟨S1024x1024, .f32⟩
  | .hbm, ⟨7, _⟩ => ⟨S512x1024, .f32⟩
  | .hbm, ⟨8, _⟩ => ⟨S1024x1024, .f32⟩
  | .hbm, ⟨9, _⟩ => ⟨S4x8192x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S512x1024, .f32⟩
  | .local _ .vmem, ⟨11, _⟩ => ⟨S1024x1024, .f32⟩
  | .local _ .vmem, ⟨12, _⟩ => ⟨S4x256x1024, .f32⟩
  | .local _ .vmem, ⟨13, _⟩ => ⟨S4x256x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1024x512_S512x1024_1_0 : S1024x512.Transposes [1, 0] S512x1024
  transposes_S1024x1024_S1024x1024_1_0 : S1024x1024.Transposes [1, 0] S1024x1024
  inb_S256x1024_S256x1024_0_0 : ∀ a, (![0, 0] : Fin 2 → Nat) a + S256x1024.size a ≤ S256x1024.size a
  h_S256x1024 : 0 < S256x1024.numel
  inb_S256x512_S256x512_0_0 : ∀ a, (![0, 0] : Fin 2 → Nat) a + S256x512.size a ≤ S256x512.size a
  h_S256x512 : 0 < S256x512.numel
  natLt_1_32 : 1 < 32
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S4x256x1024_S1x256x1024_0_0_0 : ∀ a, (![0, 0, 0] : Fin 3 → Nat) a + S1x256x1024.size a ≤ S4x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  inb_S4x256x1024_S1x256x1024_1_0_0 : ∀ a, (![1, 0, 0] : Fin 3 → Nat) a + S1x256x1024.size a ≤ S4x256x1024.size a
  inb_S4x256x1024_S1x256x1024_2_0_0 : ∀ a, (![2, 0, 0] : Fin 3 → Nat) a + S1x256x1024.size a ≤ S4x256x1024.size a
  inb_S4x256x1024_S1x256x1024_3_0_0 : ∀ a, (![3, 0, 0] : Fin 3 → Nat) a + S1x256x1024.size a ≤ S4x256x1024.size a
  dot_S256x512_S512x1024_S256x1024_1_0_0_1_n_n_wf : DotDims.WF S256x512 S512x1024 S256x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x1024.size a
  hwx0_3 : ∀ i : grid0.Coords, EltTy.bits .f32 = 32 ∨ (Rect.block (s := S8192x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S8192x1024.size a
  hwx0_4 : ∀ i : grid0.Coords, EltTy.bits .f32 = 32 ∨ (Rect.block (s := S8192x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .f32 = 32 ∨ (Rect.block (s := S512x1024) S512x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .f32 = 32 ∨ (Rect.block (s := S1024x1024) S1024x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x256x1024.size a ≤ S4x8192x1024.size a
  hwx0_7 : ∀ i : grid0.Coords, EltTy.bits .f32 = 32 ∨ (Rect.block (s := S4x8192x1024) S4x256x1024.size (cc0_transform_7 i) (hinb0_7 i)).WholeWords (EltTy.packing .f32)

variable [Facts₀]

def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S4x256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x1024 : Shape := ⟨2, ![8192, 1024]⟩
abbrev S1024x512 : Shape := ⟨2, ![1024, 512]⟩
abbrev S1024x1024 : Shape := ⟨2, ![1024, 1024]⟩
abbrev S_ : Shape := ⟨0, ![]⟩
abbrev S1x8192x1024 : Shape := ⟨3, ![1, 8192, 1024]⟩
abbrev S4x8192x1024 : Shape := ⟨3, ![4, 8192, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1024x512, .f32⟩
  | .hbm, ⟨6, _⟩ => ⟨S1024x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .i1⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x8192x1024, .f32⟩
  | .hbm, ⟨51, _⟩ => ⟨S1x8192x1024, .f32⟩
  | .hbm, ⟨52, _⟩ => ⟨S1x8192x1024, .f32⟩
  | .hbm, ⟨53, _⟩ => ⟨S1x8192x1024, .f32⟩
  | .hbm, ⟨54, _⟩ => ⟨S4x8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  bcast_S_S8192x1024 : S_.BroadcastsInDim S8192x1024 (![] : Fin 0 → Fin S8192x1024.rank)
  bcast_S8192x1024_S1x8192x1024_1_2 : S8192x1024.BroadcastsInDim S1x8192x1024 (![1, 2] : Fin 2 → Fin S1x8192x1024.rank)
  concatenates_S1x8192x1024_S1x8192x1024_S1x8192x1024_S1x8192x1024_S4x8192x1024_d0 : Shape.Concatenates [S1x8192x1024, S1x8192x1024, S1x8192x1024, S1x8192x1024] S4x8192x1024 0
  dot_S8192x512_S1024x512_S8192x1024_1_1_0_0_n_n_wf : DotDims.WF S8192x512 S1024x512 S8192x1024 [1] [1] [0] [0] [] []
  dot_S8192x1024_S1024x1024_S8192x1024_1_1_0_0_n_n_wf : DotDims.WF S8192x1024 S1024x1024 S8192x1024 [1] [1] [0] [0] [] []

variable [Facts₀]

def dot_S8192x512_S1024x512_S8192x1024_1_1_0_0_n_n : DotDims S8192x512 S1024x512 S8192x1024 where
  lhsContracting := [1]
  rhsContracting := [1]
  lhsNonContracting := [0]
  rhsNonContracting := [0]
  lhsBatch := []
  rhsBatch := []
  wf := dot_S8192x512_S1024x512_S8192x1024_1_1_0_0_n_n_wf
def dot_S8192x1024_S1024x1024_S8192x1024_1_1_0_0_n_n : DotDims S8192x1024 S1024x1024 S8192x1024 where
  lhsContracting := [1]
  rhsContracting := [1]
  lhsNonContracting := [0]
  rhsNonContracting := [0]
  lhsBatch := []
  rhsBatch := []
  wf := dot_S8192x1024_S1024x1024_S8192x1024_1_1_0_0_n_n_wf

class Facts : Prop extends Facts₀ where

variable [Facts]
-- ==== Proof.Spec.lean ====
/-
  One Euler step of an adaptive-threshold spiking cell, as ONE function of the seven argument arrays.

  Per neuron (row r, unit o), with v, i, b the membrane voltage, synaptic current and threshold adaptation there:
    v_dec = v + c_mem * ((0 - v) + i)          the voltage relaxes toward the leak potential 0 and integrates the current
    i_dec = i + c_syn * i                      the current decays (c_syn is negative)
    b_dec = b + c_ada * (1 - b)                the adaptation relaxes toward the threshold 1
    s     = [v_dec - b_dec > 0]                the spike, 0 or 1
    v_new = (1 - s) * v_dec + s * 0            reset to 0 on a spike
    i_new = i_dec + (sum_k spikes[r,k] * W_in[o,k] + sum_k z[r,k] * W_rec[o,k])
    b_new = b_dec + (s * c_tau) * c_beta
  and the result stacks (s, v_new, i_new, b_new) along a new leading axis of extent 4.

  The constants are the f32 words both programs carry; they are never evaluated, only compared.
  Everything here is over the extended reals: sums are finite sums there, addition is associative and
  commutative, and nothing below needs more than that.
-/
import Idealize.ShloMosaic.PureOps.Ideal
import Idealize.ShloMosaic.PureOps.Ideal.Laws
import Idealize.ShloMosaic.Lib.ValueIdx

noncomputable section

open scoped BigOperators

namespace Cert.Lsnn

open Idealize.ShloMosaic Idealize.ShloMosaic.ValueIdx

/-! ## The constants, as the words both programs print -/

abbrev cZero : EReal := Ideal.ofBits .f32 0x00000000#32
abbrev cOne : EReal := Ideal.ofBits .f32 0x3F800000#32
/-- dt / tau_mem, the word of 0.1. -/
abbrev cMem : EReal := Ideal.ofBits .f32 0x3DCCCCCD#32
/-- -dt / tau_syn, the word of -0.2. -/
abbrev cSyn : EReal := Ideal.ofBits .f32 0xBE4CCCCD#32
/-- dt / tau_adapt, the word of 1.25e-6. -/
abbrev cAda : EReal := Ideal.ofBits .f32 0x35A7C5AC#32
/-- 1 / tau_adapt, the word of 1.25e-3. -/
abbrev cTau : EReal := Ideal.ofBits .f32 0x3AA3D70A#32
/-- beta, the word of 1.8. -/
abbrev cBeta : EReal := Ideal.ofBits .f32 0x3FE66666#32

/-! ## One neuron -/

/-- The voltage after leak and integration. -/
def vDec (v i : EReal) : EReal := v + cMem * ((cZero - v) + i)
/-- The current after decay. -/
def iDec (i : EReal) : EReal := i + cSyn * i
/-- The adaptation after relaxation. -/
def bDec (b : EReal) : EReal := b + cAda * (cOne - b)
/-- The spike: 1 when the decayed voltage exceeds the decayed adaptation, else 0. -/
def spike (v i b : EReal) : EReal := (((Ideal.cmp .ogt (vDec v i - bDec b) cZero).toNat : ℝ) : EReal)
/-- The voltage after a possible reset. -/
def vNew (v i b : EReal) : EReal := (cOne - spike v i b) * vDec v i + spike v i b * cZero
/-- The adaptation after a possible jump. -/
def bNew (v i b : EReal) : EReal := bDec b + spike v i b * cTau * cBeta
/-- The current after the synaptic input `d1 + d2` arrives. -/
def iNew (i d1 d2 : EReal) : EReal := iDec i + (d1 + d2)

/-- A one-bit word widened to 32 bits and read signed is the bit read unsigned: both are 0 or 1. -/
theorem widen_signed_eq_unsigned (w : BitVec 1) :
    ((((w.setWidth 32).toInt : ℤ) : ℝ) : EReal) = (((w.toNat : ℕ) : ℝ) : EReal) := by
  have h : (w.setWidth 32).toInt = (w.toNat : ℤ) := by revert w; decide
  rw [h, Int.cast_natCast]

/-- The synaptic input may be added to the decayed current all at once or one product at a time. -/
theorem iNew_assoc (i d1 d2 : EReal) : iDec i + d1 + d2 = iNew i d1 d2 := by
  unfold iNew; rw [add_assoc]

/-! ## The whole result -/

/-- Component `k` of the stacked new state of one neuron, from its old state (v, i, b) and its two synaptic inputs. -/
def cellOf (v i b d1 d2 : EReal) (k : Fin 4) : EReal :=
  match k with
  | ⟨0, _⟩ => spike v i b
  | ⟨1, _⟩ => vNew v i b
  | ⟨2, _⟩ => iNew i d1 d2
  | ⟨3, _⟩ => bNew v i b

/-- The stacked new state (spike, voltage, current, adaptation) as one array of shape [4, 8192, 1024]: at (k, r, o)
    component `k` of neuron (r, o), whose synaptic inputs are row `r` of the input spikes against row `o` of the input
    weights and row `r` of the old spikes against row `o` of the recurrent weights. -/
def step (sp : (⟨2, ![8192, 512]⟩ : Shape).Idx → EReal) (z v i b : (⟨2, ![8192, 1024]⟩ : Shape).Idx → EReal)
    (wi : (⟨2, ![1024, 512]⟩ : Shape).Idx → EReal) (wr : (⟨2, ![1024, 1024]⟩ : Shape).Idx → EReal) :
    (⟨3, ![4, 8192, 1024]⟩ : Shape).Idx → EReal :=
  fun j => cellOf (v (ix2 (j 1) (j 2))) (i (ix2 (j 1) (j 2))) (b (ix2 (j 1) (j 2)))
    (∑ k : Fin 512, sp (ix2 (j 1) k) * wi (ix2 (j 2) k)) (∑ k : Fin 1024, z (ix2 (j 1) k) * wr (ix2 (j 2) k)) (j 0)

end Cert.Lsnn

end
-- ==== Proof.Block.lean ====
/-
  What one grid point's body leaves in its output block, as the step function of its input blocks.

  The body loads a 256-row tile of each state array (input spikes x0, old spikes x1, voltage x2, current x3,
  adaptation x4) and the two weight matrices whole, already transposed (x5 of shape [512, 1024], x6 of shape
  [1024, 1024]), and stores four [1, 256, 1024] slabs into its [4, 256, 1024] output block: slab k is component k of
  the new state. Read at (k, p, q) the block is therefore component k of neuron (p, q) of the tile, its synaptic
  inputs the sums over the contracted axis of x0[p, .] * x5[., q] and x1[p, .] * x6[., q].
-/
import proofs.«174818_j49117245997795_1_alg».proof.Proof.Gen.KernelIdeal.Frame
import proofs.«174818_j49117245997795_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.TcCoe Idealize.ShloMosaic.ValueIdx
open Cert.Lsnn

/-! ## The pointwise payloads at a neuron of the tile -/

/-- The decayed voltage of the tile. -/
theorem vDec_apply (x2 x3 : Vec Ideal S256x1024 .f32) (j : S256x1024.Idx) :
    k0_pay5 (F := Ideal) x2 x3 j = vDec (x2 j) (x3 j) := rfl

/-- The decayed current of the tile. -/
theorem iDec_apply (x3 : Vec Ideal S256x1024 .f32) (j : S256x1024.Idx) :
    k0_pay6 (F := Ideal) x3 j = iDec (x3 j) := rfl

/-- The decayed adaptation of the tile. -/
theorem bDec_apply (x4 : Vec Ideal S256x1024 .f32) (j : S256x1024.Idx) :
    k0_pay7 (F := Ideal) x4 j = bDec (x4 j) := rfl

/-- The spike of the tile: the comparison's bit, widened and converted signed, is the bit read unsigned. -/
theorem spike_apply (x2 x3 x4 : Vec Ideal S256x1024 .f32) (j : S256x1024.Idx) :
    k0_pay8 (F := Ideal) x2 x3 x4 j = spike (x2 j) (x3 j) (x4 j) := by
  show (((((Ideal.cmp .ogt (vDec (x2 j) (x3 j) - bDec (x4 j)) cZero).setWidth 32).toInt : ℤ) : ℝ) : EReal) = _
  exact widen_signed_eq_unsigned _

/-- The voltage of the tile after the reset. -/
theorem vNew_apply (x2 x3 x4 : Vec Ideal S256x1024 .f32) (j : S256x1024.Idx) :
    k0_pay9 (F := Ideal) x2 x3 x4 j = vNew (x2 j) (x3 j) (x4 j) := by
  show (cOne - k0_pay8 (F := Ideal) x2 x3 x4 j) * k0_pay5 (F := Ideal) x2 x3 j + k0_pay8 (F := Ideal) x2 x3 x4 j * cZero = _
  rw [spike_apply, vDec_apply]
  rfl

/-! ## The two synaptic products at a neuron of the tile

Each `tpu.matmul` contracts axis 1 of its left operand against axis 0 of its right operand into a zero
accumulator: at (p, q) it is the sum over the one contracted coordinate k of left[p, k] * right[k, q]. -/

theorem lhs_in_0 (i : S256x1024.Idx) (q : dot_S256x512_S512x1024_S256x1024_1_0_0_1_n_n.contr.Idx) :
    (dot_S256x512_S512x1024_S256x1024_1_0_0_1_n_n.lhsIdx i q 0).val = (i 0).val := by
  unfold DotDims.lhsIdx
  rw [dif_neg (show ¬(0 : Fin S256x512.rank) ∈ dot_S256x512_S512x1024_S256x1024_1_0_0_1_n_n.lhsBatch by decide), dif_pos (show (0 : Fin S256x512.rank) ∈ dot_S256x512_S512x1024_S256x1024_1_0_0_1_n_n.lhsNonContracting by decide)]
  rfl
theorem lhs_in_1 (i : S256x1024.Idx) (q : dot_S256x512_S512x1024_S256x1024_1_0_0_1_n_n.contr.Idx) :
    (dot_S256x512_S512x1024_S256x1024_1_0_0_1_n_n.lhsIdx i q 1).val = (q ⟨0, by decide⟩).val :=
  dot_S256x512_S512x1024_S256x1024_1_0_0_1_n_n.lhsIdx_val_of_single rfl i q
theorem rhs_in_0 (i : S256x1024.Idx) (q : dot_S256x512_S512x1024_S256x1024_1_0_0_1_n_n.contr.Idx) :
    (dot_S256x512_S512x1024_S256x1024_1_0_0_1_n_n.rhsIdx i q 0).val = (q ⟨0, by decide⟩).val :=
  dot_S256x512_S512x1024_S256x1024_1_0_0_1_n_n.rhsIdx_val_of_single rfl i q
theorem rhs_in_1 (i : S256x1024.Idx) (q : dot_S256x512_S512x1024_S256x1024_1_0_0_1_n_n.contr.Idx) :
    (dot_S256x512_S512x1024_S256x1024_1_0_0_1_n_n.rhsIdx i q 1).val = (i 1).val := by
  unfold DotDims.rhsIdx
  rw [dif_neg (show ¬(1 : Fin S512x1024.rank) ∈ dot_S256x512_S512x1024_S256x1024_1_0_0_1_n_n.rhsBatch by decide), dif_pos (show (1 : Fin S512x1024.rank) ∈ dot_S256x512_S512x1024_S256x1024_1_0_0_1_n_n.rhsNonContracting by decide)]
  rfl

/-- The product of the tile of input spikes with the transposed input weights. -/
theorem inputProduct_apply (a : FVec Ideal S256x512 .bf16) (w : FVec Ideal S512x1024 .bf16) (p : Fin 256) (q : Fin 1024) :
    matmul dot_S256x512_S512x1024_S256x1024_1_0_0_1_n_n none a w (constant S256x1024 .f32 0x00000000#32) (ix2 p q)
      = ∑ k : Fin 512, a (ix2 p k) * w (ix2 k q) := by
  simp only [matmul]
  rw [Ideal.matmul_constant_zero_apply, ← Equiv.sum_comp (ValueIdx.contrEquiv1 dot_S256x512_S512x1024_S256x1024_1_0_0_1_n_n 512 rfl rfl).symm]
  refine Finset.sum_congr rfl fun k _ => ?_
  have hk := ValueIdx.contrEquiv1_symm_val dot_S256x512_S512x1024_S256x1024_1_0_0_1_n_n 512 rfl rfl k
  have el : dot_S256x512_S512x1024_S256x1024_1_0_0_1_n_n.lhsIdx (ix2 p q) ((ValueIdx.contrEquiv1 dot_S256x512_S512x1024_S256x1024_1_0_0_1_n_n 512 rfl rfl).symm k) = ix2 p k := funext fun a => Fin.ext (by
    match a with
    | ⟨0, _⟩ => exact lhs_in_0 _ _
    | ⟨1, _⟩ => exact (lhs_in_1 _ _).trans hk)
  have er : dot_S256x512_S512x1024_S256x1024_1_0_0_1_n_n.rhsIdx (ix2 p q) ((ValueIdx.contrEquiv1 dot_S256x512_S512x1024_S256x1024_1_0_0_1_n_n 512 rfl rfl).symm k) = ix2 k q := funext fun a => Fin.ext (by
    match a with
    | ⟨0, _⟩ => exact (rhs_in_0 _ _).trans hk
    | ⟨1, _⟩ => exact rhs_in_1 _ _)
  rw [el, er]

theorem lhs_rec_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_rec_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_rec_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_rec_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The product of the tile of old spikes with the transposed recurrent weights. -/
theorem recurrentProduct_apply (a : FVec Ideal S256x1024 .bf16) (w : FVec Ideal S1024x1024 .bf16) (p : Fin 256) (q : Fin 1024) :
    matmul dot_S256x1024_S1024x1024_S256x1024_1_0_0_1_n_n none a w (constant S256x1024 .f32 0x00000000#32) (ix2 p q)
      = ∑ k : Fin 1024, a (ix2 p k) * w (ix2 k q) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p q) ((ValueIdx.contrEquiv1 dot_S256x1024_S1024x1024_S256x1024_1_0_0_1_n_n 1024 rfl rfl).symm k) = ix2 p k := funext fun a => Fin.ext (by
    match a with
    | ⟨0, _⟩ => exact lhs_rec_0 _ _
    | ⟨1, _⟩ => exact (lhs_rec_1 _ _).trans hk)
  have er : dot_S256x1024_S1024x1024_S256x1024_1_0_0_1_n_n.rhsIdx (ix2 p q) ((ValueIdx.contrEquiv1 dot_S256x1024_S1024x1024_S256x1024_1_0_0_1_n_n 1024 rfl rfl).symm k) = ix2 k q := funext fun a => Fin.ext (by
    match a with
    | ⟨0, _⟩ => exact (rhs_rec_0 _ _).trans hk
    | ⟨1, _⟩ => exact rhs_rec_1 _ _)
  rw [el, er]

/-- The input-weight operand of the first product is the loaded block itself: the re-laying is to the same shape and the
    change of format is the identity. -/
theorem inputWeights_apply (x5 : Vec Ideal S512x1024 .f32) (j : S512x1024.Idx) : k0_pay12 (F := Ideal) x5 j = x5 j :=
  congrFun (shapeCast_self x5 shapeCasts_S512x1024_S512x1024) j

/-- The recurrent-weight operand of the second product is the loaded block itself. -/
theorem recurrentWeights_apply (x6 : Vec Ideal S1024x1024 .f32) (j : S1024x1024.Idx) : k0_pay13 (F := Ideal) x6 j = x6 j :=
  congrFun (shapeCast_self x6 shapeCasts_S1024x1024_S1024x1024) j

/-! ## The output block -/

theorem zeros2 : (![0, 0] : Fin 2 → Nat) = fun _ => 0 := funext fun a => by fin_cases a <;> rfl

/-- The step function of one tile: at (k, p, q) component k of neuron (p, q) of the tile, the weights read transposed. -/
def blockStep (x0 : Vec Ideal S256x512 .f32) (x1 x2 x3 x4 : Vec Ideal S256x1024 .f32) (x5 : Vec Ideal S512x1024 .f32)
    (x6 : Vec Ideal S1024x1024 .f32) : Vec Ideal S4x256x1024 .f32 :=
  fun y => cellOf (x2 (ix2 (y 1) (y 2))) (x3 (ix2 (y 1) (y 2))) (x4 (ix2 (y 1) (y 2)))
    (∑ k : Fin 512, x0 (ix2 (y 1) k) * x5 (ix2 k (y 2))) (∑ k : Fin 1024, x1 (ix2 (y 1) k) * x6 (ix2 k (y 2))) (y 0)

/-- A [256, 1024] value re-laid as a [1, 256, 1024] slab reads at (a, p, q) the value at (p, q). -/
theorem slab_apply {α : Type} (v : S256x1024.Idx → α) (h : S256x1024.ShapeCasts S1x256x1024) (a : Fin 1) (p : Fin 256) (q : Fin 1024) :
    shapeCast S1x256x1024 v h (ix3 a p q) = v (ix2 p q) := by
  rw [shapeCast_addUnit_apply ![256, 1024] v h (ix3 a p q)]
  exact congrArg v (funext fun d => by match d with | ⟨0, _⟩ => rfl | ⟨1, _⟩ => rfl)

/-- Slab k of the block sits at rows k of its leading axis: local index (a, p, q) of the slab is (k, p, q) of the block. -/
theorem slab_emb (off : Fin 3 → Nat) (inb : ∀ a, off a + S1x256x1024.size a ≤ S4x256x1024.size a) (k : Fin 4)
    (h0 : off 0 = k.val) (h1 : off 1 = 0) (h2 : off 2 = 0) (a : Fin 1) (p : Fin 256) (q : Fin 1024) :
    (Rect.unit (s := S4x256x1024) off S1x256x1024.size inb).emb (ix3 a p q) = ix3 k p q := by
  funext d; apply Fin.ext
  have ha : a.val < 1 := a.isLt
  match d with
  | ⟨0, _⟩ => show off 0 + 1 * a.val = k.val; omega
  | ⟨1, _⟩ => show off 1 + 1 * p.val = p.val; omega
  | ⟨2, _⟩ => show off 2 + 1 * q.val = q.val; omega

/-- Slab 0 holds the spike. -/
theorem slab0_apply (v23 : FVec Ideal S256x1024 .f32) (a : Fin 1) (p : Fin 256) (q : Fin 1024) :
    k0_pay1 (F := Ideal) v23 (ix3 a p q) = v23 (ix2 p q) := slab_apply _ _ a p q

/-- Slab 1 holds the reset voltage. -/
theorem slab1_apply (v29 : FVec Ideal S256x1024 .f32) (a : Fin 1) (p : Fin 256) (q : Fin 1024) :
    k0_pay2 (F := Ideal) v29 (ix3 a p q) = v29 (ix2 p q) := slab_apply _ _ a p q

/-- Slab 2 holds the decayed current plus the sum of the two synaptic products. -/
theorem slab2_apply (v13 : FVec Ideal S256x1024 .f32) (v30 : FVec Ideal S256x512 .bf16) (v31 : FVec Ideal S256x1024 .bf16)
    (v34 : FVec Ideal S512x1024 .bf16) (v36 : FVec Ideal S1024x1024 .f32) (a : Fin 1) (p : Fin 256) (q : Fin 1024) :
    k0_pay3 (F := Ideal) v13 v30 v31 v34 v36 (ix3 a p q)
      = v13 (ix2 p q) + (∑ k : Fin 512, v30 (ix2 p k) * v34 (ix2 k q) + ∑ k : Fin 1024, v31 (ix2 p k) * v36 (ix2 k q)) := by
  refine (slab_apply (addf v13 (addf (matmul dot_S256x512_S512x1024_S256x1024_1_0_0_1_n_n none v30 v34 (constant S256x1024 .f32 0x00000000#32))
    (matmul dot_S256x1024_S1024x1024_S256x1024_1_0_0_1_n_n none v31 (truncf .bf16 v36 bitsLt_bf16_f32) (constant S256x1024 .f32 0x00000000#32))))
    shapeCasts_S256x1024_S1x256x1024 a p q).trans ?_
  show v13 (ix2 p q) + (matmul dot_S256x512_S512x1024_S256x1024_1_0_0_1_n_n none v30 v34 (constant S256x1024 .f32 0x00000000#32) (ix2 p q)
    + matmul dot_S256x1024_S1024x1024_S256x1024_1_0_0_1_n_n none v31 (truncf .bf16 v36 bitsLt_bf16_f32) (constant S256x1024 .f32 0x00000000#32) (ix2 p q)) = _
  rw [inputProduct_apply, recurrentProduct_apply]
  rfl

/-- Slab 3 holds the jumped adaptation. -/
theorem slab3_apply (v18 v23 : FVec Ideal S256x1024 .f32) (a : Fin 1) (p : Fin 256) (q : Fin 1024) :
    k0_pay4 (F := Ideal) v18 v23 (ix3 a p q) = v18 (ix2 p q) + v23 (ix2 p q) * cTau * cBeta :=
  slab_apply (addf v18 (mulf (mulf v23 (broadcast S256x1024 cTau)) (broadcast S256x1024 cBeta))) shapeCasts_S256x1024_S1x256x1024 a p q

/-- WHAT THE BODY LEAVES in its output block is the step function of its input blocks: each of the four stored slabs is
    the slab of `blockStep` its rectangle names, and the slabs cover the block. -/
theorem out_eq (x0 : Vec Ideal S256x512 .f32) (x1 x2 x3 x4 : Vec Ideal S256x1024 .f32) (x5 : Vec Ideal S512x1024 .f32)
    (x6 : Vec Ideal S1024x1024 .f32) :
    out0_7 (F := Ideal) x0 x1 x2 x3 x4 x5 x6 = blockStep x0 x1 x2 x3 x4 x5 x6 := by
  funext y
  unfold out0_7
  simp only [View.ld_unit_zero (S := S256x1024) zeros2, View.ld_unit_zero (S := S256x512) zeros2,
    View.ld_unit_zero (S := S512x1024) zeros2, View.ld_unit_zero (S := S1024x1024) zeros2]
  refine View.canon_apply_of_pieces (Val := Elt Ideal) (e := .f32) (blockStep x0 x1 x2 x3 x4 x5 x6) _ ?_ y (cover0_7 _ _ _ _ y)
  intro pc hpc x
  simp only [List.mem_cons, List.not_mem_nil, or_false] at hpc
  rcases hpc with rfl | rfl | rfl | rfl
  · obtain ⟨a, p, q, rfl⟩ : ∃ (a : Fin 1) (p : Fin 256) (q : Fin 1024), x = ix3 a p q := ⟨x 0, x 1, x 2, eq_ix3 x⟩
    refine (slab3_apply _ _ a p q).trans ?_
    rw [show r0_7.emb (ix3 a p q) = ix3 (3 : Fin 4) p q from slab_emb _ _ 3 rfl rfl rfl a p q, bDec_apply, spike_apply]
    rfl
  · obtain ⟨a, p, q, rfl⟩ : ∃ (a : Fin 1) (p : Fin 256) (q : Fin 1024), x = ix3 a p q := ⟨x 0, x 1, x 2, eq_ix3 x⟩
    refine (slab2_apply _ _ _ _ _ a p q).trans ?_
    rw [show r0_6.emb (ix3 a p q) = ix3 (2 : Fin 4) p q from slab_emb _ _ 2 rfl rfl rfl a p q, iDec_apply]
    simp only [inputWeights_apply, recurrentWeights_apply]
    rfl
  · obtain ⟨a, p, q, rfl⟩ : ∃ (a : Fin 1) (p : Fin 256) (q : Fin 1024), x = ix3 a p q := ⟨x 0, x 1, x 2, eq_ix3 x⟩
    show k0_pay2 (F := Ideal) (k0_pay9 x2 x3 x4) (ix3 a p q) = blockStep x0 x1 x2 x3 x4 x5 x6 (r0_5.emb (ix3 a p q))
    refine (slab1_apply _ a p q).trans ?_
    rw [show r0_5.emb (ix3 a p q) = ix3 (1 : Fin 4) p q from slab_emb _ _ 1 rfl rfl rfl a p q, vNew_apply]
    rfl
  · obtain ⟨a, p, q, rfl⟩ : ∃ (a : Fin 1) (p : Fin 256) (q : Fin 1024), x = ix3 a p q := ⟨x 0, x 1, x 2, eq_ix3 x⟩
    show k0_pay1 (F := Ideal) (k0_pay8 x2 x3 x4) (ix3 a p q) = blockStep x0 x1 x2 x3 x4 x5 x6 (r0_4.emb (ix3 a p q))
    refine (slab0_apply _ a p q).trans ?_
    rw [show r0_4.emb (ix3 a p q) = ix3 (0 : Fin 4) p q from slab_emb _ _ 0 rfl rfl rfl a p q, spike_apply]
    rfl

/-! ## A tile of the whole arrays

When the input blocks are rows T*256 .. T*256 + 255 of the state arrays and the weight blocks are the transposed
weight matrices, the step function of the tile is the step function of the whole arrays on those rows. -/

theorem blockStep_eq_step (x0 : Vec Ideal S256x512 .f32) (x1 x2 x3 x4 : Vec Ideal S256x1024 .f32) (x5 : Vec Ideal S512x1024 .f32)
    (x6 : Vec Ideal S1024x1024 .f32)
    (sp : (⟨2, ![8192, 512]⟩ : Shape).Idx → EReal) (z v i b : (⟨2, ![8192, 1024]⟩ : Shape).Idx → EReal)
    (wi : (⟨2, ![1024, 512]⟩ : Shape).Idx → EReal) (wr : (⟨2, ![1024, 1024]⟩ : Shape).Idx → EReal)
    (row : Fin 256 → Fin 8192)
    (h0 : ∀ (p : Fin 256) (k : Fin 512), x0 (ix2 p k) = sp (ix2 (row p) k))
    (h1 : ∀ (p : Fin 256) (k : Fin 1024), x1 (ix2 p k) = z (ix2 (row p) k))
    (h2 : ∀ (p : Fin 256) (q : Fin 1024), x2 (ix2 p q) = v (ix2 (row p) q))
    (h3 : ∀ (p : Fin 256) (q : Fin 1024), x3 (ix2 p q) = i (ix2 (row p) q))
    (h4 : ∀ (p : Fin 256) (q : Fin 1024), x4 (ix2 p q) = b (ix2 (row p) q))
    (h5 : ∀ (k : Fin 512) (q : Fin 1024), x5 (ix2 k q) = wi (ix2 q k))
    (h6 : ∀ (k : Fin 1024) (q : Fin 1024), x6 (ix2 k q) = wr (ix2 q k))
    (k : Fin 4) (p : Fin 256) (q : Fin 1024) :
    blockStep x0 x1 x2 x3 x4 x5 x6 (ix3 k p q) = step sp z v i b wi wr (ix3 k (row p) q) := by
  show cellOf (x2 (ix2 p q)) (x3 (ix2 p q)) (x4 (ix2 p q))
      (∑ j : Fin 512, x0 (ix2 p j) * x5 (ix2 j q)) (∑ j : Fin 1024, x1 (ix2 p j) * x6 (ix2 j q)) k
    = cellOf (v (ix2 (row p) q)) (i (ix2 (row p) q)) (b (ix2 (row p) q))
      (∑ j : Fin 512, sp (ix2 (row p) j) * wi (ix2 q j)) (∑ j : Fin 1024, z (ix2 (row p) j) * wr (ix2 q j)) k
  rw [h2 p q, h3 p q, h4 p q]
  simp only [h0, h1, h5, h6]

end Cert.KernelIdeal.Block

end
-- ==== Proof.KernelStep.lean ====
/-
  The kernel's result array is the step function of its arguments.

  The grid has 32 points; point t stages rows t*256 .. t*256 + 255 of the five state arrays, the two weight
  matrices whole (transposed on the host before the launch), and writes back block (0, t, 0) of the [4, 8192, 1024]
  result: all four components of those 256 rows. What it writes back is the step function of its tile, which is the
  step function of the whole arrays on those rows; the 32 blocks cover the result, so the result is the step function.
-/
import proofs.«174818_j49117245997795_1_alg».proof.Proof.Gen.KernelIdeal.Value
import proofs.«174818_j49117245997795_1_alg».proof.Proof.Block
import Idealize.ShloMosaic.Lib.StableHlo.Run

set_option maxRecDepth 16384

noncomputable section

open scoped BigOperators

namespace Cert.KernelIdeal.StepValue

open Cert.KernelIdeal Cert.KernelIdeal.Gen Idealize.ShloMosaic Idealize.ShloMosaic.TcCoe Idealize.SL.Sem
open Idealize.ShloMosaic.ValueIdx Idealize.ShloMosaic.StableHlo Cert.Lsnn Cert.KernelIdeal.Block
open Idealize.ShloMosaic.Pipeline (Dat)

variable (m : (ℓ : Loc nD τ sig) → Buf (Elt Ideal) ℓ) (ρ : Dev nD → PrngReg)

/-! ## The weights as the region finds them: transposed by the host -/

/-- The first weight window's array is the input weights transposed. -/
theorem inputWeightsT (c : Dev nD) (k : Fin 512) (q : Fin 1024) :
    (V m c main_v0 : S512x1024.Idx → EReal) (ix2 k q) = m ((c : Thread nD τ).loc main_arg5) (ix2 q k) := by
  have e : (V m c main_v0 : S512x1024.Idx → EReal)
      = transpose S512x1024 [1, 0] (m ((c : Thread nD τ).loc main_arg5)) transposes_S1024x512_S512x1024_1_0 := by
    dsimp only [Gen.V, Gen.hostOps0]; after_results
  rw [e]
  exact transpose_apply _ _ _ (ix2 k q) (ix2 q k) (fun b => by match b with | ⟨0, _⟩ => rfl | ⟨1, _⟩ => rfl)

/-- The second weight window's array is the recurrent weights transposed. -/
theorem recurrentWeightsT (c : Dev nD) (k : Fin 1024) (q : Fin 1024) :
    (V m c main_v1 : S1024x1024.Idx → EReal) (ix2 k q) = m ((c : Thread nD τ).loc main_arg6) (ix2 q k) := by
  have e : (V m c main_v1 : S1024x1024.Idx → EReal)
      = transpose S1024x1024 [1, 0] (m ((c : Thread nD τ).loc main_arg6)) transposes_S1024x1024_S1024x1024_1_0 := by
    dsimp only [Gen.V, Gen.hostOps0]; after_results
  rw [e]
  exact transpose_apply _ _ _ (ix2 k q) (ix2 q k) (fun b => by match b with | ⟨0, _⟩ => rfl | ⟨1, _⟩ => rfl)

/-! ## The printed index maps, decided over the 32 grid points -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = 0 ∧ win0_7.index t (1 : Fin 3) = t.val ∧ win0_7.index t (2 : Fin 3) = 0 :=
  (by decide +kernel : ∀ t : Fin grid0.N, _)

/-! ## What a point writes back -/

/-- Row `p` of point `t`'s tile is row t*256 + p of the arrays. -/
def rowOf (t : Fin cfg0.N) (p : Fin 256) : Fin 8192 :=
  ⟨t.val * 256 + p.val, by have := t.isLt; have := p.isLt; have h : cfg0.N = 32 := N_0; omega⟩

/-- WHAT POINT `t` WRITES BACK is block `t` of the step function of the argument arrays. -/
theorem flushed_eq (c : Dev nD) (t : Fin cfg0.N) :
    (dats m 0 c).flushed 7 t = ((cfg0.win 7).blk t).view.read (Elt Ideal) (step (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed7, out_eq (iblk m c 0 t) (iblk m c 1 t) (iblk m c 2 t) (iblk m c 3 t) (iblk m c 4 t) (iblk m c 5 t) (iblk m c 6 t)]
  obtain ⟨e00, e01, e10, e11, e20, e21, e30, e31, e40, e41, e50, e51, e60, e61, e70, e71, e72⟩ := idx_facts t
  funext j
  obtain ⟨k, p, q, rfl⟩ : ∃ (k : Fin 4) (p : Fin 256) (q : Fin 1024), j = ix3 k p q :=
    ⟨j 0, j 1, j 2, eq_ix3 (n0 := 4) (n1 := 256) (n2 := 1024) j⟩
  show blockStep (iblk m c 0 t) (iblk m c 1 t) (iblk m c 2 t) (iblk m c 3 t) (iblk m c 4 t) (iblk m c 5 t) (iblk m c 6 t) (ix3 k p q) = step (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb (ix3 k p q))
  have hemb : ((cfg0.win 7).blk t).view.emb (ix3 k p q) = ix3 k (rowOf t p) q := by
    funext a; apply Fin.ext
    match a with
    | ⟨0, _⟩ => show win0_7.index t (0 : Fin 3) * 4 + 1 * k.val = k.val; omega
    | ⟨1, _⟩ => show win0_7.index t (1 : Fin 3) * 256 + 1 * p.val = t.val * 256 + p.val; omega
    | ⟨2, _⟩ => show win0_7.index t (2 : Fin 3) * 1024 + 1 * q.val = q.val; omega
  rw [hemb]
  refine blockStep_eq_step (iblk m c 0 t) (iblk m c 1 t) (iblk m c 2 t) (iblk m c 3 t) (iblk m c 4 t) (iblk m c 5 t) (iblk m c 6 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (rowOf t) ?_ ?_ ?_ ?_ ?_ ?_ ?_ k p q
  · intro p k'
    show V m c main_arg0 (((cfg0.win 0).blk t).view.emb (ix2 p k')) = m ((c : Thread nD τ).loc main_arg0) (ix2 (rowOf t p) k')
    rw [V_main_arg0]
    refine congrArg _ (funext fun a => Fin.ext ?_)
    match a with
    | ⟨0, _⟩ => show win0_0.index t (0 : Fin 2) * 256 + 1 * p.val = t.val * 256 + p.val; omega
    | ⟨1, _⟩ => show win0_0.index t (1 : Fin 2) * 512 + 1 * k'.val = k'.val; omega
  · intro p k'
    show V m c main_arg1 (((cfg0.win 1).blk t).view.emb (ix2 p k')) = m ((c : Thread nD τ).loc main_arg1) (ix2 (rowOf t p) k')
    rw [V_main_arg1]
    refine congrArg _ (funext fun a => Fin.ext ?_)
    match a with
    | ⟨0, _⟩ => show win0_1.index t (0 : Fin 2) * 256 + 1 * p.val = t.val * 256 + p.val; omega
    | ⟨1, _⟩ => show win0_1.index t (1 : Fin 2) * 1024 + 1 * k'.val = k'.val; omega
  · intro p q'
    show V m c main_arg2 (((cfg0.win 2).blk t).view.emb (ix2 p q')) = m ((c : Thread nD τ).loc main_arg2) (ix2 (rowOf t p) q')
    rw [V_main_arg2]
    refine congrArg _ (funext fun a => Fin.ext ?_)
    match a with
    | ⟨0, _⟩ => show win0_2.index t (0 : Fin 2) * 256 + 1 * p.val = t.val * 256 + p.val; omega
    | ⟨1, _⟩ => show win0_2.index t (1 : Fin 2) * 1024 + 1 * q'.val = q'.val; omega
  · intro p q'
    show V m c main_arg3 (((cfg0.win 3).blk t).view.emb (ix2 p q')) = m ((c : Thread nD τ).loc main_arg3) (ix2 (rowOf t p) q')
    rw [V_main_arg3]
    refine congrArg _ (funext fun a => Fin.ext ?_)
    match a with
    | ⟨0, _⟩ => show win0_3.index t (0 : Fin 2) * 256 + 1 * p.val = t.val * 256 + p.val; omega
    | ⟨1, _⟩ => show win0_3.index t (1 : Fin 2) * 1024 + 1 * q'.val = q'.val; omega
  · intro p q'
    show V m c main_arg4 (((cfg0.win 4).blk t).view.emb (ix2 p q')) = m ((c : Thread nD τ).loc main_arg4) (ix2 (rowOf t p) q')
    rw [V_main_arg4]
    refine congrArg _ (funext fun a => Fin.ext ?_)
    match a with
    | ⟨0, _⟩ => show win0_4.index t (0 : Fin 2) * 256 + 1 * p.val = t.val * 256 + p.val; omega
    | ⟨1, _⟩ => show win0_4.index t (1 : Fin 2) * 1024 + 1 * q'.val = q'.val; omega
  · intro k' q'
    show V m c main_v0 (((cfg0.win 5).blk t).view.emb (ix2 k' q')) = m ((c : Thread nD τ).loc main_arg5) (ix2 q' k')
    rw [← inputWeightsT m c k' q']
    refine congrArg _ (funext fun a => Fin.ext ?_)
    match a with
    | ⟨0, _⟩ => show win0_5.index t (0 : Fin 2) * 512 + 1 * k'.val = k'.val; omega
    | ⟨1, _⟩ => show win0_5.index t (1 : Fin 2) * 1024 + 1 * q'.val = q'.val; omega
  · intro k' q'
    show V m c main_v1 (((cfg0.win 6).blk t).view.emb (ix2 k' q')) = m ((c : Thread nD τ).loc main_arg6) (ix2 q' k')
    rw [← recurrentWeightsT m c k' q']
    refine congrArg _ (funext fun a => Fin.ext ?_)
    match a with
    | ⟨0, _⟩ => show win0_6.index t (0 : Fin 2) * 1024 + 1 * k'.val = k'.val; omega
    | ⟨1, _⟩ => show win0_6.index t (1 : Fin 2) * 1024 + 1 * q'.val = q'.val; omega

/-! ## The blocks cover the result -/

/-- An index of the result is in point `t`'s block iff each coordinate is in the block's range on its axis. -/
theorem mem_blk (t : Fin cfg0.N) (i : S4x8192x1024.Idx) :
    i ∈ ((cfg0.win 7).blk t).view.set ↔ ∀ a : Fin 3, win0_7.index t a * S4x256x1024.size a ≤ (i a).val
      ∧ (i a).val < win0_7.index t a * S4x256x1024.size a + S4x256x1024.size a := by
  show i ∈ ((View.whole main_v2).slice (win0_7.rect t)).set ↔ _
  rw [View.set_slice_whole, Rect.mem_set_unit]
  exact Iff.rfl

/-- Every index of the result is in the block of the point its row names: row r is in tile r / 256. -/
theorem covered (i : S4x8192x1024.Idx) :
    ∃ t : Fin cfg0.N, (cfg0.win 7).flush t = true ∧ i ∈ ((cfg0.win 7).blk t).view.set := by
  have h0 : (i 0).val < 4 := (i 0).isLt
  have h1 : (i 1).val < 8192 := (i 1).isLt
  have h2 : (i 2).val < 1024 := (i 2).isLt
  have hN : cfg0.N = 32 := N_0
  have ht : (i 1).val / 256 < cfg0.N := by omega
  obtain ⟨-, -, -, -, -, -, -, -, -, -, -, -, -, -, e70, e71, e72⟩ := idx_facts ⟨(i 1).val / 256, ht⟩
  refine ⟨⟨(i 1).val / 256, ht⟩, flush0_7 _, ?_⟩
  rw [mem_blk]
  intro a
  match a with
  | ⟨0, _⟩ =>
    show win0_7.index ⟨(i 1).val / 256, ht⟩ (0 : Fin 3) * 4 ≤ (i 0).val ∧ (i 0).val < win0_7.index ⟨(i 1).val / 256, ht⟩ (0 : Fin 3) * 4 + 4
    omega
  | ⟨1, _⟩ =>
    show win0_7.index ⟨(i 1).val / 256, ht⟩ (1 : Fin 3) * 256 ≤ (i 1).val ∧ (i 1).val < win0_7.index ⟨(i 1).val / 256, ht⟩ (1 : Fin 3) * 256 + 256
    have e : win0_7.index ⟨(i 1).val / 256, ht⟩ (1 : Fin 3) = (i 1).val / 256 := e71
    omega
  | ⟨2, _⟩ =>
    show win0_7.index ⟨(i 1).val / 256, ht⟩ (2 : Fin 3) * 1024 ≤ (i 2).val ∧ (i 2).val < win0_7.index ⟨(i 1).val / 256, ht⟩ (2 : Fin 3) * 1024 + 1024
    omega

/-- THE RESULT ARRAY after the run is the step function of the argument arrays. -/
theorem final (c : Dev nD) : (dats m 0 c).arrAt 7 cfg0.N = step (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 (step (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed_eq m c t) covered

/-! ## The run, read -/

/-- Every weakly fair execution of the kernel program terminates with the result at the step function of the
    arguments, and the arguments unchanged. -/
theorem run : θ_run defs (onTc (τ := τ) (main (F := Ideal))) ⟨m, fun _ => 0, ρ⟩ fun r => ∀ c : Dev nD,
      r.2.mem ((c : Thread nD τ).loc main_v2) = step (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.StepValue

end
-- ==== Proof.RefStep.lean ====
/-
  The reference program's result is the step function of its arguments.

  The reference computes, over the whole [8192, 1024] arrays at once, the decayed voltage, current and adaptation, the
  spike, the reset voltage, the current after both synaptic products (each a contraction of a row of spikes against a
  row of a weight matrix) added one after the other, and the jumped adaptation; it then stacks the four results along
  a new leading axis. Read at (k, r, o) that is component k of neuron (r, o).
-/
import proofs.«174818_j49117245997795_1_alg».proof.Proof.Gen.ReferenceIdeal.Read
import proofs.«174818_j49117245997795_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.StepValue

open Cert.ReferenceIdeal Cert.ReferenceIdeal.Gen Cert.ReferenceIdeal.Read Idealize.ShloMosaic Idealize.ShloMosaic.TcCoe
open Idealize.ShloMosaic.ValueIdx Cert.Lsnn

/-! ## The whole-array stages at a neuron -/

/-- The decayed voltage. -/
theorem vDec_apply (x2 x3 : (⟨S8192x1024, .f32⟩ : BufTy).Contents (Elt Ideal)) (i : S8192x1024.Idx) :
    val_main_v5 (F := Ideal) x2 x3 i = vDec (x2 i) (x3 i) := rfl

/-- The decayed current. -/
theorem iDec_apply (x3 : (⟨S8192x1024, .f32⟩ : BufTy).Contents (Elt Ideal)) (i : S8192x1024.Idx) :
    val_main_v8 (F := Ideal) x3 i = iDec (x3 i) := rfl

/-- The decayed adaptation. -/
theorem bDec_apply (x4 : (⟨S8192x1024, .f32⟩ : BufTy).Contents (Elt Ideal)) (i : S8192x1024.Idx) :
    val_main_v13 (F := Ideal) x4 i = bDec (x4 i) := rfl

/-- The spike. -/
theorem spike_apply (x2 x3 x4 : (⟨S8192x1024, .f32⟩ : BufTy).Contents (Elt Ideal)) (i : S8192x1024.Idx) :
    val_main_v17 (F := Ideal) x2 x3 x4 i = spike (x2 i) (x3 i) (x4 i) := rfl

/-- The voltage after the reset. -/
theorem vNew_apply (x2 x3 x4 : (⟨S8192x1024, .f32⟩ : BufTy).Contents (Elt Ideal)) (i : S8192x1024.Idx) :
    val_main_v23 (F := Ideal) x2 x3 x4 i = vNew (x2 i) (x3 i) (x4 i) := rfl

/-- The adaptation after the jump. -/
theorem bNew_apply (x2 x3 x4 : (⟨S8192x1024, .f32⟩ : BufTy).Contents (Elt Ideal)) (i : S8192x1024.Idx) :
    val_main_v32 (F := Ideal) x2 x3 x4 i = bNew (x2 i) (x3 i) (x4 i) := rfl

/-- The current after both synaptic products: the reference adds them to the decayed current one after the other,
    which is the decayed current plus their sum. -/
theorem iNew_apply (x0 : (⟨S8192x512, .f32⟩ : BufTy).Contents (Elt Ideal)) (x1 x3 : (⟨S8192x1024, .f32⟩ : BufTy).Contents (Elt Ideal))
    (x5 : (⟨S1024x512, .f32⟩ : BufTy).Contents (Elt Ideal)) (x6 : (⟨S1024x1024, .f32⟩ : BufTy).Contents (Elt Ideal)) (r : Fin 8192) (o : Fin 1024) :
    val_main_v27 (F := Ideal) x0 x1 x3 x5 x6 (ix2 r o)
      = iNew (x3 (ix2 r o)) (∑ k : Fin 512, x0 (ix2 r k) * x5 (ix2 o k)) (∑ k : Fin 1024, x1 (ix2 r k) * x6 (ix2 o k)) := by
  have hl24 : ∀ k : Fin 512, lidx_main_v24 (ix2 r o) k = ix2 r k := fun k => funext fun a => by
    match a with | ⟨0, _⟩ => rfl | ⟨1, _⟩ => rfl
  have hr24 : ∀ k : Fin 512, ridx_main_v24 (ix2 r o) k = ix2 o k := fun k => funext fun a => by
    match a with | ⟨0, _⟩ => rfl | ⟨1, _⟩ => rfl
  have hl26 : ∀ k : Fin 1024, lidx_main_v26 (ix2 r o) k = ix2 r k := fun k => funext fun a => by
    match a with | ⟨0, _⟩ => rfl | ⟨1, _⟩ => rfl
  have hr26 : ∀ k : Fin 1024, ridx_main_v26 (ix2 r o) k = ix2 o k := fun k => funext fun a => by
    match a with | ⟨0, _⟩ => rfl | ⟨1, _⟩ => rfl
  rw [val_main_v27_apply, val_main_v25_apply, val_main_v24_apply, val_main_v26_apply]
  simp only [hl24, hr24, hl26, hr26]
  exact iNew_assoc _ _ _

/-! ## The stack -/

/-- A slab of the stack reads its [8192, 1024] operand at the two trailing coordinates. -/
theorem slab_idx (k : Fin 1) (r : Fin 8192) (o : Fin 1024) : idx_main_v33 (ix3 k r o) = ix2 r o :=
  funext fun a => by match a with | ⟨0, _⟩ => rfl | ⟨1, _⟩ => rfl

/-- THE REFERENCE'S RESULT is the step function of its seven arguments. -/
theorem result_eq (x0 : (⟨S8192x512, .f32⟩ : BufTy).Contents (Elt Ideal)) (x1 x2 x3 x4 : (⟨S8192x1024, .f32⟩ : BufTy).Contents (Elt Ideal))
    (x5 : (⟨S1024x512, .f32⟩ : BufTy).Contents (Elt Ideal)) (x6 : (⟨S1024x1024, .f32⟩ : BufTy).Contents (Elt Ideal)) :
    val_main_v37 (F := Ideal) x0 x1 x2 x3 x4 x5 x6 = step x0 x1 x2 x3 x4 x5 x6 := by
  funext j
  obtain ⟨k, r, o, rfl⟩ : ∃ (k : Fin 4) (r : Fin 8192) (o : Fin 1024), j = ix3 k r o := ⟨j 0, j 1, j 2, eq_ix3 j⟩
  have hi : ∀ b : Fin S1x8192x1024.rank, b.cast (rfl : S1x8192x1024.rank = S4x8192x1024.rank) ≠ (0 : Fin S4x8192x1024.rank) →
      ((ix3 (0 : Fin 1) r o : S1x8192x1024.Idx) b).val = ((ix3 k r o : S4x8192x1024.Idx) (b.cast rfl)).val := fun b hb => by
    match b with
    | ⟨0, _⟩ => exact absurd rfl hb
    | ⟨1, _⟩ => rfl
    | ⟨2, _⟩ => rfl
  unfold val_main_v37
  match k with
  | ⟨0, _⟩ =>
    rw [concatenate_apply_piece (0 : Fin S4x8192x1024.rank) _ _ _ 0 (by simp) S1x8192x1024 _ rfl rfl 0 rfl (ix3 (0 : Fin 1) r o) hi rfl,
      val_main_v33_apply, slab_idx, spike_apply]
    rfl
  | ⟨1, _⟩ =>
    rw [concatenate_apply_piece (0 : Fin S4x8192x1024.rank) _ _ _ 1 (by simp) S1x8192x1024 _ rfl rfl 1 rfl (ix3 (0 : Fin 1) r o) hi rfl,
      val_main_v34_apply, show idx_main_v34 (ix3 (0 : Fin 1) r o) = ix2 r o from slab_idx 0 r o, vNew_apply]
    rfl
  | ⟨2, _⟩ =>
    rw [concatenate_apply_piece (0 : Fin S4x8192x1024.rank) _ _ _ 2 (by simp) S1x8192x1024 _ rfl rfl 2 rfl (ix3 (0 : Fin 1) r o) hi rfl,
      val_main_v35_apply, show idx_main_v35 (ix3 (0 : Fin 1) r o) = ix2 r o from slab_idx 0 r o, iNew_apply]
    rfl
  | ⟨3, _⟩ =>
    rw [concatenate_apply_piece (0 : Fin S4x8192x1024.rank) _ _ _ 3 (by simp) S1x8192x1024 _ rfl rfl 3 rfl (ix3 (0 : Fin 1) r o) hi rfl,
      val_main_v36_apply, show idx_main_v36 (ix3 (0 : Fin 1) r o) = ix2 r o from slab_idx 0 r o, bNew_apply]
    rfl

end Cert.ReferenceIdeal.StepValue

end
-- ==== Proof.lean ====
/-
  One Euler step of an adaptive-threshold spiking cell: a pipelined kernel against its array reference, equal over
  the extended reals.

  Both programs compute, per neuron, the decayed voltage, current and adaptation, the spike (a comparison's bit read
  as 0 or 1), the reset voltage, the current after the two synaptic products, and the jumped adaptation, with the
  same f32 constants, and stack the four results. They differ in three ways, none of which changes a value there:
  the kernel works tile by tile (256 rows at a point, 32 points) where the reference works on whole arrays; the
  kernel contracts against weight matrices the host transposed beforehand where the reference contracts rows against
  rows, which is the same sum re-indexed; and the kernel adds the two products to each other before adding them to the
  decayed current where the reference adds them one after the other, which is associativity of addition. The spike
  bit is widened and converted signed in the kernel and converted unsigned in the reference: both give 0 or 1.
  No step needs the inputs to be finite.

  Proof/Spec.lean states the step function; Proof/RefStep.lean shows the reference's result is it; Proof/Block.lean
  shows a grid point's output block is it on the point's tile; Proof/KernelStep.lean assembles the 32 blocks into the
  kernel's result array. The frames of the two kernel programs are the generated ones, the reference's frame is its
  generated run with the result dropped, and there is no idealization rewrite to account for.
-/
import proofs.«174818_j49117245997795_1_alg».proof.Defs
import proofs.«174818_j49117245997795_1_alg».proof.Proof.Gen.Kernel
import proofs.«174818_j49117245997795_1_alg».proof.Proof.Gen.Kernel.Skeleton
import proofs.«174818_j49117245997795_1_alg».proof.Proof.Gen.Kernel.Launch
import proofs.«174818_j49117245997795_1_alg».proof.Proof.Gen.Kernel.Points
import proofs.«174818_j49117245997795_1_alg».proof.Proof.Gen.Kernel.Frame
import proofs.«174818_j49117245997795_1_alg».proof.Proof.Gen.KernelIdeal
import proofs.«174818_j49117245997795_1_alg».proof.Proof.Gen.KernelIdeal.Skeleton
import proofs.«174818_j49117245997795_1_alg».proof.Proof.Gen.KernelIdeal.Launch
import proofs.«174818_j49117245997795_1_alg».proof.Proof.Gen.KernelIdeal.Points
import proofs.«174818_j49117245997795_1_alg».proof.Proof.Gen.KernelIdeal.Frame
import proofs.«174818_j49117245997795_1_alg».proof.Proof.Gen.ReferenceIdeal
import proofs.«174818_j49117245997795_1_alg».proof.Proof.Gen.Pre_finite_inputs
import proofs.«174818_j49117245997795_1_alg».proof.Proof.Gen.KernelIdeal.Value
import proofs.«174818_j49117245997795_1_alg».proof.Proof.Gen.ReferenceIdeal.Run
import proofs.«174818_j49117245997795_1_alg».proof.Proof.Gen.ReferenceIdeal.Read
import proofs.«174818_j49117245997795_1_alg».proof.Proof.KernelStep
import proofs.«174818_j49117245997795_1_alg».proof.Proof.RefStep
import Idealize.ShloMosaic.Adequacy
import Idealize.ShloMosaic.Init

noncomputable section

namespace Cert.Proof

open Idealize.ShloMosaic Idealize.SL.Sem Cert.Kernel

/-- From memories that agree on the seven arguments both idealized programs end with the step function of those
    arguments in their result: the kernel by its 32 blocks, the reference by its stages read at an index. -/
theorem algebraic : Cert.algebraic_KernelIdeal_ReferenceIdeal := by
  intro m ρ m' ρ' _ hagree
  refine ⟨fun c => Cert.Lsnn.step (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.StepValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v37_eq, Cert.ReferenceIdeal.StepValue.result_eq, a0, a1, a2, a3, a4, a5, a6]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
